-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S2x800000 : Shape := ⟨2, ![2, 800000]⟩
abbrev S96x64 : Shape := ⟨2, ![96, 64]⟩
abbrev S64 : Shape := ⟨1, ![64]⟩
abbrev S64x64 : Shape := ⟨2, ![64, 64]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S96x64 : S_.BroadcastsInDim S96x64 (![] : Fin 0 → Fin S96x64.rank)
  reducesTo_S96x64_S_d0_1 : S96x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64x64 .f32) (main_arg6 : FVec F S64x64 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x96 .f32) (main_arg1 : IVec S2x800000 32) (main_arg2 : FVec F S96x64 .f32) (main_arg3 : FVec F S96x64 .f32) (main_arg4 : FVec F S64 .f32) (main_arg5 : FVec F S64x64 .f32) (main_arg6 : FVec F S64x64 .f32) (main_arg7 : FVec F S64 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S96x64 .f32 := Host.absf main_arg2
  let main_cst_0 : FVec F S_ .f32 := constant S_ .f32 0x7F800000#32
  let main_v5 : FVec F S96x64 .f32 := broadcastInDim S96x64 ![] bcast_S_S96x64 main_cst_0
  let main_v6 : IVec S96x64 1 := cmpf .olt main_v4 main_v5
  let main_c_1 : IVec S_ 1 := constantI S_ 1 1#1
  let main_v7 : IVec S_ 1 := (fun x v => Host.reduce IntOp.andi x v reducesTo_S96x64_S_d0_1 h_S_) main_v6 main_c_1
  let main_v8 : IVec S_ 1 := andi main_v3 main_v7
  let main_v9 : FVec F S96x64 .f32 := Host.absf main_arg3
  let main_cst_2 : FVec F S_ .f32 := constant S_ .f32 0x7F800000#32
  let main_v10 : FVec F S96x64 .f32 := broadcastInDim S96x64 ![] bcast_S_S96x64 main_cst_2
  let main_v11 : IVec S96x64 1 := cmpf .olt main_v9 main_v10
  let main_c_3 : IVec S_ 1 := constantI S_ 1 1#1
  let main_v12 : IVec S_ 1 := (fun x v => Host.reduce IntOp.andi x v reducesTo_S96x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_v13 main_v16
-- ==== Kernel.lean ====
abbrev S50000x96 : Shape := ⟨2, ![50000, 96]⟩
abbrev S2x800000 : Shape := ⟨2, ![2, 800000]⟩
abbrev S96x64 : Shape := ⟨2, ![96, 64]⟩
abbrev S64 : Shape := ⟨1, ![64]⟩
abbrev S64x64 : Shape := ⟨2, ![64, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x96 : Shape := ⟨2, ![800000, 96]⟩
abbrev S50000 : Shape := ⟨1, ![50000]⟩
abbrev S50000x1 : Shape := ⟨2, ![50000, 1]⟩
abbrev S1x64 : Shape := ⟨2, ![1, 64]⟩
abbrev S50000x64 : Shape := ⟨2, ![50000, 64]⟩
abbrev S5000x96 : Shape := ⟨2, ![5000, 96]⟩
abbrev S5000x64 : Shape := ⟨2, ![5000, 64]⟩
abbrev S800000x64 : Shape := ⟨2, ![800000, 64]⟩

abbrev nBuf : Space → Nat
  | .hbm => 66
  | .vmem => 18
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S96x64, .f32⟩
  | .hbm, ⟨3, _⟩ => ⟨S96x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x96, .f32⟩
  | .hbm, ⟨21, _⟩ => ⟨S_, .f32⟩
  | .hbm, ⟨22, _⟩ => ⟨S50000x96, .f32⟩
  | .hbm, ⟨23, _⟩ => ⟨S800000x1, .i32⟩
  | .hbm, ⟨24, _⟩ => ⟨S50000x96, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x96, .f32⟩
  | .hbm, ⟨36, _⟩ => ⟨S50000x96, .f32⟩
  | .hbm, ⟨37, _⟩ => ⟨S1x64, .f32⟩
  | .hbm, ⟨38, _⟩ => ⟨S50000x64, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x64, .f32⟩
  | .hbm, ⟨48, _⟩ => ⟨S_, .f32⟩
  | .hbm, ⟨49, _⟩ => ⟨S50000x64, .f32⟩
  | .hbm, ⟨50, _⟩ => ⟨S800000x1, .i32⟩
  | .hbm, ⟨51, _⟩ => ⟨S50000x64, .f32⟩
  | .hbm, ⟨52, _⟩ => ⟨S_, .f32⟩
  | .hbm, ⟨53, _⟩ => ⟨S800000, .f32⟩
  | .hbm, ⟨54, _⟩ => ⟨S_, .f32⟩
  | .hbm, ⟨55, _⟩ => ⟨S50000, .f32⟩
  | .hbm, ⟨56, _⟩ => ⟨S800000x1, .i32⟩
  | .hbm, ⟨57, _⟩ => ⟨S50000, .f32⟩
  | .hbm, ⟨58, _⟩ => ⟨S_, .f32⟩
  | .hbm, ⟨59, _⟩ => ⟨S50000, .f32⟩
  | .hbm, ⟨60, _⟩ => ⟨S50000, .f32⟩
  | .hbm, ⟨61, _⟩ => ⟨S50000x1, .f32⟩
  | .hbm, ⟨62, _⟩ => ⟨S50000x64, .f32⟩
  | .hbm, ⟨63, _⟩ => ⟨S50000x64, .f32⟩
  | .hbm, ⟨64, _⟩ => ⟨S1x64, .f32⟩
  | .hbm, ⟨65, _⟩ => ⟨S50000x64, .f32⟩
  | .local _ .vmem, ⟨0, _⟩ => ⟨S5000x96, .f32⟩
  | .local _ .vmem, ⟨1, _⟩ => ⟨S5000x96, .f32⟩
  | .local _ .vmem, ⟨2, _⟩ => ⟨S5000x96, .f32⟩
  | .local _ .vmem, ⟨3, _⟩ => ⟨S5000x96, .f32⟩
  | .local _ .vmem, ⟨4, _⟩ => ⟨S96x64, .f32⟩
  | .local _ .vmem, ⟨5, _⟩ => ⟨S96x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S96x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S96x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  shapeCasts_S64_S1x64 : S64.ShapeCasts S1x64
  inb_S5000x96_S5000x96_0_0 : ∀ a, (![0, 0] : Fin 2 → Nat) a + S5000x96.size a ≤ S5000x96.size a
  h_S5000x96 : 0 < S5000x96.numel
  shapeCasts_S5000x96_S5000x96 : S5000x96.ShapeCasts S5000x96
  bitsLt_bf16_f32 : FTy.bits .bf16 < FTy.bits .f32
  inb_S96x64_S96x64_0_0 : ∀ a, (![0, 0] : Fin 2 → Nat) a + S96x64.size a ≤ S96x64.size a
  h_S96x64 : 0 < S96x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  scatter_S50000_S800000x1_S800000_n_0_0_1_wf : ScatterDims.WF S50000 S800000x1 S800000 [] [0] [0] 1
  dot_S5000x96_S96x64_S5000x64_1_0_0_1_n_n_wf : DotDims.WF S5000x96 S96x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S50000x96.size a
  hwx0_0 : ∀ i : grid0.Coords, EltTy.bits .f32 = 32 ∨ (Rect.block (s := S50000x96) S5000x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x96.size a ≤ S50000x96.size a
  hwx0_1 : ∀ i : grid0.Coords, EltTy.bits .f32 = 32 ∨ (Rect.block (s := S50000x96) S5000x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S96x64.size a ≤ S96x64.size a
  hwx0_2 : ∀ i : grid0.Coords, EltTy.bits .f32 = 32 ∨ (Rect.block (s := S96x64) S96x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S96x64.size a ≤ S96x64.size a
  hwx0_3 : ∀ i : grid0.Coords, EltTy.bits .f32 = 32 ∨ (Rect.block (s := S96x64) S96x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x96_S96x64_S5000x64_1_0_0_1_n_n : DotDims S5000x96 S96x64 S5000x64 where
  lhsContracting := [1]
  rhsContracting := [0]
  lhsNonContracting := [0]
  rhsNonContracting := [1]
  lhsBatch := []
  rhsBatch := []
  wf := dot_S5000x96_S96x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v22) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S96x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S96x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x96 : Shape := ⟨2, ![50000, 96]⟩
abbrev S2x800000 : Shape := ⟨2, ![2, 800000]⟩
abbrev S96x64 : Shape := ⟨2, ![96, 64]⟩
abbrev S64 : Shape := ⟨1, ![64]⟩
abbrev S64x64 : Shape := ⟨2, ![64, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x96 : Shape := ⟨2, ![800000, 96]⟩
abbrev S50000 : Shape := ⟨1, ![50000]⟩
abbrev S50000x1 : Shape := ⟨2, ![50000, 1]⟩
abbrev S50000x64 : Shape := ⟨2, ![50000, 64]⟩
abbrev S1x64 : Shape := ⟨2, ![1, 64]⟩
abbrev S800000x64 : Shape := ⟨2, ![800000, 64]⟩

abbrev nBuf : Space → Nat
  | .hbm => 77
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S96x64, .f32⟩
  | .hbm, ⟨3, _⟩ => ⟨S96x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x96, .f32⟩
  | .hbm, ⟨21, _⟩ => ⟨S_, .f32⟩
  | .hbm, ⟨22, _⟩ => ⟨S50000x96, .f32⟩
  | .hbm, ⟨23, _⟩ => ⟨S800000x1, .i32⟩
  | .hbm, ⟨24, _⟩ => ⟨S50000x96, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x96, .f32⟩
  | .hbm, ⟨36, _⟩ => ⟨S50000x96, .f32⟩
  | .hbm, ⟨37, _⟩ => ⟨S50000x64, .f32⟩
  | .hbm, ⟨38, _⟩ => ⟨S50000x64, .f32⟩
  | .hbm, ⟨39, _⟩ => ⟨S50000x64, .f32⟩
  | .hbm, ⟨40, _⟩ => ⟨S1x64, .f32⟩
  | .hbm, ⟨41, _⟩ => ⟨S50000x64, .f32⟩
  | .hbm, ⟨42, _⟩ => ⟨S50000x64, .f32⟩
  | .hbm, ⟨43, _⟩ => ⟨S_, .f32⟩
  | .hbm, ⟨44, _⟩ => ⟨S50000x64, .f32⟩
  | .hbm, ⟨45, _⟩ => ⟨S50000x64, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x64, .f32⟩
  | .hbm, ⟨55, _⟩ => ⟨S_, .f32⟩
  | .hbm, ⟨56, _⟩ => ⟨S50000x64, .f32⟩
  | .hbm, ⟨57, _⟩ => ⟨S800000x1, .i32⟩
  | .hbm, ⟨58, _⟩ => ⟨S50000x64, .f32⟩
  | .hbm, ⟨59, _⟩ => ⟨S_, .f32⟩
  | .hbm, ⟨60, _⟩ => ⟨S800000, .f32⟩
  | .hbm, ⟨61, _⟩ => ⟨S_, .f32⟩
  | .hbm, ⟨62, _⟩ => ⟨S50000, .f32⟩
  | .hbm, ⟨63, _⟩ => ⟨S800000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x64, .f32⟩
  | .hbm, ⟨70, _⟩ => ⟨S50000x64, .f32⟩
  | .hbm, ⟨71, _⟩ => ⟨S50000x64, .f32⟩
  | .hbm, ⟨72, _⟩ => ⟨S50000x64, .f32⟩
  | .hbm, ⟨73, _⟩ => ⟨S50000x64, .f32⟩
  | .hbm, ⟨74, _⟩ => ⟨S1x64, .f32⟩
  | .hbm, ⟨75, _⟩ => ⟨S50000x64, .f32⟩
  | .hbm, ⟨76, _⟩ => ⟨S50000x64, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  scatter_S50000_S800000x1_S800000_n_0_0_1_wf : ScatterDims.WF S50000 S800000x1 S800000 [] [0] [0] 1
  dot_S50000x96_S96x64_S50000x64_1_0_0_1_n_n_wf : DotDims.WF S50000x96 S96x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x96_S96x64_S50000x64_1_0_0_1_n_n : DotDims S50000x96 S96x64 S50000x64 where
  lhsContracting := [1]
  rhsContracting := [0]
  lhsNonContracting := [0]
  rhsNonContracting := [1]
  lhsBatch := []
  rhsBatch := []
  wf := dot_S50000x96_S96x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.HostK.lean ====
/-
  The neighbour-mean aggregation the program computes on the host, as functions of whole arrays, and the contents of
  the buffers each kernel region finds.

  From the edge array e (row 0 the sources, row 1 the targets, negative sources wrapped once by the node count), the
  aggregation of a feature array x gathers x's rows at the sources, adds each gathered row into its target's row of a zero
  array, and divides every row by the larger of one and the number of edges into that node. The first region finds
  this aggregation of the input features, the features themselves, the first layer's weights and its bias as a row; the
  second finds the same aggregation of the first region's result, that result, the second layer's weights and bias.
-/
import proofs.«119526_j39170101740217_1_alg».proof.Proof.Gen.KernelIdeal.Frame
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo

variable {F : FTy → Type} [FloatOps F]

/-- The edges' sources: row 0 of the edge array. -/
def src (e : Vec F S2x800000 .i32) : Vec F S800000 .i32 :=
  shapeCast _ (extractStridedSlice S1x800000 ![0, 0] e slices_S2x800000_S1x800000_0_0) shapeCasts_S1x800000_S800000

/-- The edges' targets: row 1 of the edge array. -/
def tgt (e : Vec F S2x800000 .i32) : Vec F S800000 .i32 :=
  shapeCast _ (extractStridedSlice S1x800000 ![1, 0] e slices_S2x800000_S1x800000_1_0) shapeCasts_S1x800000_S800000

/-- The gather's row indices from the sources `s`: a negative source has the node count added once. -/
def srcIdx (s : Vec F S800000 .i32) : Vec F S800000x1 .i32 :=
  broadcastInDim S800000x1 ![0] bcast_S800000_S800000x1_0 (select (cmpi .slt s (broadcastInDim S800000 ![] bcast_S_S800000 (constantI S_ 32 0#32))) (addi s (broadcastInDim S800000 ![] bcast_S_S800000 (constantI S_ 32 50000#32))) s)

/-- The scatter's row indices: the targets `t` as a column. -/
def tgtIdx (t : Vec F S800000 .i32) : Vec F S800000x1 .i32 :=
  broadcastInDim S800000x1 ![0] bcast_S800000_S800000x1_0 t

/-- The divisor per node: the number of edges into it, at least one. -/
def deg (t : Vec F S800000 .i32) : Vec F S50000 .f32 :=
  maximumf (Host.scatterAdd scatter_S50000_S800000x1_S800000_n_0_0_1 (broadcastInDim S50000 ![] bcast_S_S50000 (constant S_ .f32 0x00000000#32)) (tgtIdx t) (broadcastInDim S800000 ![] bcast_S_S800000 (constant S_ .f32 0x3F800000#32))) (broadcastInDim S50000 ![] bcast_S_S50000 (constant S_ .f32 0x3F800000#32))

/-- The neighbour means of a 96-feature array along edges with sources `s` and targets `t`. -/
def agg96 (x : Vec F S50000x96 .f32) (s t : Vec F S800000 .i32) : Vec F S50000x96 .f32 :=
  Host.divf (Host.scatterAdd scatter_S50000x96_S800000x1_S800000x96_1_0_0_1 (broadcastInDim S50000x96 ![] bcast_S_S50000x96 (constant S_ .f32 0x00000000#32)) (tgtIdx t) (Host.gather gather_S50000x96_S800000x1_S800000x96_1_0_n_n_0_1_196 x (srcIdx s))) (broadcastInDim S50000x96 ![0, 1] bcast_S50000x1_S50000x96_0_1 (broadcastInDim S50000x1 ![0] bcast_S50000_S50000x1_0 (deg t)))

/-- The neighbour means of a 64-feature array along edges with sources `s` and targets `t`. -/
def agg64 (h : Vec F S50000x64 .f32) (s t : Vec F S800000 .i32) : Vec F S50000x64 .f32 :=
  Host.divf (Host.scatterAdd scatter_S50000x64_S800000x1_S800000x64_1_0_0_1 (broadcastInDim S50000x64 ![] bcast_S_S50000x64 (constant S_ .f32 0x00000000#32)) (tgtIdx t) (Host.gather gather_S50000x64_S800000x1_S800000x64_1_0_n_n_0_1_164 h (srcIdx s))) (broadcastInDim S50000x64 ![0, 1] bcast_S50000x1_S50000x64_0_1 (broadcastInDim S50000x1 ![0] bcast_S50000_S50000x1_0 (deg t)))

/-! ## The host operations before each region, from any buffer contents `W` -/

section Stretches
variable (W : Valuation τ sig (Elt F))

set_option maxHeartbeats 2000000 in
/-- Before the first region: the neighbour means of the features. -/
theorem after0_v22 : StableHlo.after hostOps0 W (Proc.devRef .tc main_v22)
    = agg96 (W (Proc.devRef .tc main_arg0)) (src (W (Proc.devRef .tc main_arg1))) (tgt (W (Proc.devRef .tc main_arg1))) := by
  simp only [hostOps0]
  after_results_simp
  rfl

set_option maxHeartbeats 2000000 in
/-- Before the first region: the first bias as a row. -/
theorem after0_v23 : StableHlo.after hostOps0 W (Proc.devRef .tc main_v23)
    = shapeCast _ (W (Proc.devRef .tc main_arg4)) shapeCasts_S64_S1x64 := by
  simp only [hostOps0]
  after_results_simp
  rfl

set_option maxHeartbeats 2000000 in
/-- The sources, computed before the first region and read again before the second. -/
theorem after0_v1 : StableHlo.after hostOps0 W (Proc.devRef .tc main_v1) = src (W (Proc.devRef .tc main_arg1)) := by
  simp only [hostOps0]
  after_results_simp
  rfl

set_option maxHeartbeats 2000000 in
/-- The targets, computed before the first region and read again before the second. -/
theorem after0_v3 : StableHlo.after hostOps0 W (Proc.devRef .tc main_v3) = tgt (W (Proc.devRef .tc main_arg1)) := by
  simp only [hostOps0]
  after_results_simp
  rfl

set_option maxHeartbeats 2000000 in
/-- No host operation before the first region writes an argument. -/
theorem after0_args : StableHlo.after hostOps0 W (Proc.devRef .tc main_arg0) = W (Proc.devRef .tc main_arg0)
    ∧ StableHlo.after hostOps0 W (Proc.devRef .tc main_arg1) = W (Proc.devRef .tc main_arg1)
    ∧ StableHlo.after hostOps0 W (Proc.devRef .tc main_arg2) = W (Proc.devRef .tc main_arg2)
    ∧ StableHlo.after hostOps0 W (Proc.devRef .tc main_arg3) = W (Proc.devRef .tc main_arg3)
    ∧ StableHlo.after hostOps0 W (Proc.devRef .tc main_arg5) = W (Proc.devRef .tc main_arg5)
    ∧ StableHlo.after hostOps0 W (Proc.devRef .tc main_arg6) = W (Proc.devRef .tc main_arg6)
    ∧ StableHlo.after hostOps0 W (Proc.devRef .tc main_arg7) = W (Proc.devRef .tc main_arg7) := by
  simp only [hostOps0]
  refine ⟨?_, ?_, ?_, ?_, ?_, ?_, ?_⟩ <;> after_results_simp

set_option maxHeartbeats 2000000 in
/-- Before the second region: the neighbour means of the first layer's result, along the same edges. -/
theorem after1_v43 : StableHlo.after hostOps1 W (Proc.devRef .tc main_v43)
    = agg64 (W (Proc.devRef .tc main_v24)) (W (Proc.devRef .tc main_v1)) (W (Proc.devRef .tc main_v3)) := by
  simp only [hostOps1]
  after_results_simp
  rfl

set_option maxHeartbeats 2000000 in
/-- Before the second region: the second bias as a row. -/
theorem after1_v44 : StableHlo.after hostOps1 W (Proc.devRef .tc main_v44)
    = shapeCast _ (W (Proc.devRef .tc main_arg7)) shapeCasts_S64_S1x64 := by
  simp only [hostOps1]
  after_results_simp
  rfl

set_option maxHeartbeats 2000000 in
/-- No host operation between the regions writes the first layer's result or the second layer's weights. -/
theorem after1_kept : StableHlo.after hostOps1 W (Proc.devRef .tc main_v24) = W (Proc.devRef .tc main_v24)
    ∧ StableHlo.after hostOps1 W (Proc.devRef .tc main_arg5) = W (Proc.devRef .tc main_arg5)
    ∧ StableHlo.after hostOps1 W (Proc.devRef .tc main_arg6) = W (Proc.devRef .tc main_arg6) := by
  simp only [hostOps1]
  refine ⟨?_, ?_, ?_⟩ <;> after_results_simp

end Stretches

end Cert.KernelIdeal.Chain

end
-- ==== Proof.LibDot.lean ====
/-
  Matrix products with ONE contracted axis and no batch axis, read at an entry at the ideal values, for any dimension
  numbers record whose axis lists are the stated ones (a printed record satisfies each hypothesis by `rfl`).

  With the accumulator the zero constant, the product at entry (a, b) is the sum over the contracted coordinate `c` of
  the left operand's entry times the right operand's entry; which coordinate of each operand `c` runs over is what the
  three forms below differ in: rows by columns (`_10`), the left operand transposed against a right operand contracted
  on its last axis (`_01`), and both operands contracted on their first axis (`_00`).
  Also: a non-contracting axis of either operand reads the output index, and the bf16 zero pattern is the real zero.
-/
import Idealize.ShloMosaic.Lib.ValueIdx
import Idealize.ShloMosaic.PureOps.Ideal.Laws

noncomputable section

open scoped BigOperators

namespace Cert.LibDot

open Idealize.ShloMosaic Idealize.ShloMosaic.ValueIdx

/-- The bf16 pattern of all zero bits is the number zero. -/
theorem ofBits_zero_bf16 : Ideal.ofBits .bf16 0x0000#16 = 0 := by simp [Ideal.ofBits, Ideal.ieee]

section Axes
variable {sl sr so : Shape} (d : DotDims sl sr so)

/-- With no batch axis and one non-contracting axis on the left, that axis of the left operand reads the output's
    first coordinate. -/
theorem lhsIdx_val_non {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one non-contracting axis on each side, the right operand's non-contracting axis reads the
    output's second coordinate. -/
theorem rhsIdx_val_non {nl : Fin sl.rank} {nr : Fin sr.rank} (hlb : d.lhsBatch = []) (hrb : d.rhsBatch = [])
    (hln : d.lhsNonContracting = [nl]) (hn : d.rhsNonContracting = [nr]) (j : so.Idx)
    (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Axes

/-- Rows by columns: an `M × K` by a `K × N` operand, the left contracted on its last axis and the right on its
    first. -/
theorem matmul_10_zero_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 a c) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l0 := lhsIdx_val_non d hlb hln (ix2 a b) ((contrEquiv1 d K hr hs).symm c) Nat.zero_lt_two
  have l1 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

/-- A `K × M` left operand contracted on its first axis against an `N × K` right operand contracted on its last. -/
theorem matmul_01_zero_apply {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (prec : Option ContractPrecision) (A : FVec Ideal ⟨2, ![K, M]⟩ φ₁) (B : FVec Ideal ⟨2, ![N, K]⟩ φ₂)
    (a : Fin M) (b : Fin N) :
    matmul (F := Ideal) d prec A B (constant ⟨2, ![M, N]⟩ .f32 0x00000000#32) (ix2 a b)
      = ∑ c : Fin K, A (ix2 c a) * B (ix2 b c) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r1 := (d.rhsIdx_val_of_single hrc (ix2 a b) ((contrEquiv1 d K hr hs).symm c)).trans c2
  have r0 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 b c := by
    funext ax; apply Fin.ext
    match ax with
    | ⟨0, _⟩ => exact r0
    | ⟨1, _⟩ => exact r1
  rw [l2, r2]

/-- Both operands contracted on their first axis: a `K × M` by a `K × N` operand. -/
theorem matmul_00_zero_apply {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (A : FVec Ideal ⟨2, ![K, M]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 c a) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

end Cert.LibDot

end
-- ==== Proof.Spec.lean ====
/-
  One SAGE layer as a function of whole arrays, at the ideal values.

  For a node-feature array `X` (M rows, K features), the neighbour means `A` of the same shape, two weight arrays
  `Wl`, `Wr` (K by N) and a bias row `b`, the layer's entry (p, q) is
      (sum over k of A[p,k] * Wl[k,q]) + (sum over k of X[p,k] * Wr[k,q]) + b[q],
  and the first layer takes the maximum of that with zero. Nothing here depends on how the rows are tiled: a row block of
  the layer's result is the layer of the same row block of `A` and `X`.
-/
import proofs.«119526_j39170101740217_1_alg».proof.Proof.LibDot
import Idealize.ShloMosaic.Lib.ValueLayout

noncomputable section

open scoped BigOperators

namespace Cert.Sage

open Idealize.ShloMosaic Idealize.ShloMosaic.ValueIdx

/-- Entry (p, q) of one layer before any activation. -/
def linAt {M K N : Nat} (A X : FVec Ideal ⟨2, ![M, K]⟩ .f32) (Wl Wr : FVec Ideal ⟨2, ![K, N]⟩ .f32)
    (b : Fin N → EReal) (p : Fin M) (q : Fin N) : EReal :=
  (∑ k : Fin K, A (ix2 p k) * Wl (ix2 k q)) + (∑ k : Fin K, X (ix2 p k) * Wr (ix2 k q)) + b q

/-- The layer without activation, as a whole array. -/
def lin {M K N : Nat} (A X : FVec Ideal ⟨2, ![M, K]⟩ .f32) (Wl Wr : FVec Ideal ⟨2, ![K, N]⟩ .f32)
    (b : Fin N → EReal) : FVec Ideal ⟨2, ![M, N]⟩ .f32 :=
  fun i => linAt A X Wl Wr b (i 0) (i 1)

/-- The layer followed by the maximum with zero, as a whole array. -/
def reluLin {M K N : Nat} (A X : FVec Ideal ⟨2, ![M, K]⟩ .f32) (Wl Wr : FVec Ideal ⟨2, ![K, N]⟩ .f32)
    (b : Fin N → EReal) : FVec Ideal ⟨2, ![M, N]⟩ .f32 :=
  fun i => max (linAt A X Wl Wr b (i 0) (i 1)) 0

/-- The entry depends only on row `p` of `A` and `X`, column `q` of the weights and entry `q` of the bias: operands
    that agree there (read at row `p'` and column `q'` of the second family) give the same entry. -/
theorem linAt_congr {M M' K N N' : Nat} (A X : FVec Ideal ⟨2, ![M, K]⟩ .f32) (A' X' : FVec Ideal ⟨2, ![M', K]⟩ .f32)
    (Wl Wr : FVec Ideal ⟨2, ![K, N]⟩ .f32) (Wl' Wr' : FVec Ideal ⟨2, ![K, N']⟩ .f32) (b : Fin N → EReal) (b' : Fin N' → EReal)
    (p : Fin M) (p' : Fin M') (q : Fin N) (q' : Fin N')
    (hA : ∀ k, A (ix2 p k) = A' (ix2 p' k)) (hX : ∀ k, X (ix2 p k) = X' (ix2 p' k))
    (hWl : ∀ k, Wl (ix2 k q) = Wl' (ix2 k q')) (hWr : ∀ k, Wr (ix2 k q) = Wr' (ix2 k q')) (hb : b q = b' q') :
    linAt A X Wl Wr b p q = linAt A' X' Wl' Wr' b' p' q' := by
  unfold linAt
  simp only [hA, hX, hWl, hWr, hb]

end Cert.Sage

end
-- ==== Proof.Body0.lean ====
/-
  The first layer's kernel body on one row block, at the ideal values: what it stores is, entry by entry, the layer with
  activation of the blocks it loaded. The casts to bf16 are the identity on extended reals, each matrix product into the
  zero accumulator is the sum over the feature axis, and the bias row is broadcast over the block's rows.
-/
import proofs.«119526_j39170101740217_1_alg».proof.Proof.Spec
import proofs.«119526_j39170101740217_1_alg».proof.Proof.Gen.KernelIdeal.Skeleton
import Idealize.ShloMosaic.Lib.Pipeline.Value

noncomputable section

open scoped BigOperators

namespace Cert.KernelIdeal.Layer0

open Cert.KernelIdeal Cert.KernelIdeal.Gen Idealize.ShloMosaic Idealize.ShloMosaic.ValueIdx

/-- The body's stored value at entry (p, q) of the block. -/
theorem pay_apply (x0 x1 : Vec Ideal S5000x96 .f32) (x2 x3 : Vec Ideal S96x64 .f32) (x4 : Vec Ideal S1x64 .f32)
    (p : Fin 5000) (q : Fin 64) :
    k0_pay1 (F := Ideal) x0 x1 x2 x3 x4 (ix2 p q)
      = max (Cert.Sage.linAt x0 x1 x2 x3 (fun j => x4 (ix2 (0 : Fin 1) j)) p q) 0 := by
  unfold k0_pay1 Cert.Sage.linAt
  simp only [maximumf_apply, addf_apply, broadcast_apply, shapeCast_self]
  rw [Cert.LibDot.matmul_10_zero_apply dot_S5000x96_S96x64_S5000x64_1_0_0_1_n_n rfl rfl rfl rfl rfl rfl,
    Cert.LibDot.matmul_10_zero_apply dot_S5000x96_S96x64_S5000x64_1_0_0_1_n_n rfl rfl rfl rfl rfl rfl,
    broadcastTo_1b_ab_apply]
  simp only [truncf_apply, Ideal.ofBits_def, Ideal.ofBits_zero_f32]

end Cert.KernelIdeal.Layer0

end
-- ==== Proof.Region0.lean ====
/-
  The first layer's region as a whole-array function. Grid point t loads rows 5000 t … 5000 t + 4999 of the neighbour
  means and of the node features, the two weight arrays and the bias row whole, and writes back the same rows of the
  result; the ten row blocks tile the 50000 rows. So after the region the result array holds the layer with activation
  of the arrays the region found, entry by entry.
-/
import proofs.«119526_j39170101740217_1_alg».proof.Proof.Body0
import proofs.«119526_j39170101740217_1_alg».proof.Proof.Gen.KernelIdeal.Frame
import Idealize.ShloMosaic.Lib.Pipeline.Value

noncomputable section

open scoped BigOperators

namespace Cert.KernelIdeal.Layer0

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block index of every window at every grid point: the row-blocked windows sit at block row t, the weights and the
    bias at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The result array after the region, as a function of the arrays the region finds. -/
def G (c : Dev nD) : Vec Ideal S50000x64 .f32 :=
  Cert.Sage.reluLin (M := 50000) (K := 96) (N := 64) (V c main_v22) (V c main_arg0) (V c main_arg2) (V c main_arg3)
    (fun j => V c main_v23 (ix2 (0 : Fin 1) j))

/-- The neighbour means' block at point t is rows 5000 t … of the array. -/
theorem blk0_apply (c : Dev nD) (t : Fin cfg0.N) (y : S5000x96.Idx) (k : S50000x96.Idx)
    (h0 : (k 0).val = 5000 * t.val + (y 0).val) (h1 : (k 1).val = (y 1).val) :
    (iblk0 V c 0 t : Vec Ideal S5000x96 .f32) y = (V c main_v22 : S50000x96.Idx → EReal) k := by
  obtain ⟨e0, e1, -⟩ := idx_facts t
  unfold iblk0
  rw [View.read_apply]
  show V c main_v22 _ = V c main_v22 _
  refine congrArg _ ?_
  funext a
  apply Fin.ext
  match a with
  | ⟨0, _⟩ => show win0_0.index t (0 : Fin 2) * 5000 + 1 * (y 0).val = (k 0).val; rw [e0, h0]; omega
  | ⟨1, _⟩ => show win0_0.index t (1 : Fin 2) * 96 + 1 * (y 1).val = (k 1).val; rw [e1, h1]; omega

/-- The node features' block at point t is rows 5000 t … of the array. -/
theorem blk1_apply (c : Dev nD) (t : Fin cfg0.N) (y : S5000x96.Idx) (k : S50000x96.Idx)
    (h0 : (k 0).val = 5000 * t.val + (y 0).val) (h1 : (k 1).val = (y 1).val) :
    (iblk0 V c 1 t : Vec Ideal S5000x96 .f32) y = (V c main_arg0 : S50000x96.Idx → EReal) k := by
  obtain ⟨-, -, e0, e1, -⟩ := idx_facts t
  unfold iblk0
  rw [View.read_apply]
  show V c main_arg0 _ = V c main_arg0 _
  refine congrArg _ ?_
  funext a
  apply Fin.ext
  match a with
  | ⟨0, _⟩ => show win0_1.index t (0 : Fin 2) * 5000 + 1 * (y 0).val = (k 0).val; rw [e0, h0]; omega
  | ⟨1, _⟩ => show win0_1.index t (1 : Fin 2) * 96 + 1 * (y 1).val = (k 1).val; rw [e1, h1]; omega

/-- The left weights' block at every point is the whole array. -/
theorem blk2_apply (c : Dev nD) (t : Fin cfg0.N) (y k : S96x64.Idx)
    (h0 : (k 0).val = (y 0).val) (h1 : (k 1).val = (y 1).val) :
    (iblk0 V c 2 t : Vec Ideal S96x64 .f32) y = (V c main_arg2 : S96x64.Idx → EReal) k := by
  obtain ⟨-, -, -, -, e0, e1, -⟩ := idx_facts t
  unfold iblk0
  rw [View.read_apply]
  show V c main_arg2 _ = V c main_arg2 _
  refine congrArg _ ?_
  funext a
  apply Fin.ext
  match a with
  | ⟨0, _⟩ => show win0_2.index t (0 : Fin 2) * 96 + 1 * (y 0).val = (k 0).val; rw [e0, h0]; omega
  | ⟨1, _⟩ => show win0_2.index t (1 : Fin 2) * 64 + 1 * (y 1).val = (k 1).val; rw [e1, h1]; omega

/-- The right weights' block at every point is the whole array. -/
theorem blk3_apply (c : Dev nD) (t : Fin cfg0.N) (y k : S96x64.Idx)
    (h0 : (k 0).val = (y 0).val) (h1 : (k 1).val = (y 1).val) :
    (iblk0 V c 3 t : Vec Ideal S96x64 .f32) y = (V c main_arg3 : S96x64.Idx → EReal) k := by
  obtain ⟨-, -, -, -, -, -, e0, e1, -⟩ := idx_facts t
  unfold iblk0
  rw [View.read_apply]
  show V c main_arg3 _ = V c main_arg3 _
  refine congrArg _ ?_
  funext a
  apply Fin.ext
  match a with
  | ⟨0, _⟩ => show win0_3.index t (0 : Fin 2) * 96 + 1 * (y 0).val = (k 0).val; rw [e0, h0]; omega
  | ⟨1, _⟩ => show win0_3.index t (1 : Fin 2) * 64 + 1 * (y 1).val = (k 1).val; rw [e1, h1]; omega

/-- The bias row's block at every point is the whole row. -/
theorem blk4_apply (c : Dev nD) (t : Fin cfg0.N) (y k : S1x64.Idx)
    (h0 : (k 0).val = (y 0).val) (h1 : (k 1).val = (y 1).val) :
    (iblk0 V c 4 t : Vec Ideal S1x64 .f32) y = (V c main_v23 : S1x64.Idx → EReal) k := by
  obtain ⟨-, -, -, -, -, -, -, -, e0, e1, -⟩ := idx_facts t
  unfold iblk0
  rw [View.read_apply]
  show V c main_v23 _ = V c main_v23 _
  refine congrArg _ ?_
  funext a
  apply Fin.ext
  match a with
  | ⟨0, _⟩ => show win0_4.index t (0 : Fin 2) * 1 + 1 * (y 0).val = (k 0).val; rw [e0, h0]; omega
  | ⟨1, _⟩ => show win0_4.index t (1 : Fin 2) * 64 + 1 * (y 1).val = (k 1).val; rw [e1, h1]; omega

/-- What point t writes back is block t of `G`. -/
theorem flushed_eq (c : Dev nD) (t : Fin cfg0.N) :
    (dat0 V c).flushed 5 t = ((cfg0.win 5).blk t).view.read (Elt Ideal) (G V c) := by
  obtain ⟨-, -, -, -, -, -, -, -, -, -, e0, e1⟩ := idx_facts t
  show (cfg0.win 5).cut (grid0.coords t) ((dat0 V c).after 5 t) = _
  rw [after0_5]
  unfold out0_5
  rw [View.canon_unit_zero hz]
  simp only [View.ld_unit_zero (S := S5000x96) hz, View.ld_unit_zero (S := S96x64) hz, View.ld_unit_zero (S := S1x64) hz]
  funext j
  obtain ⟨p, q, rfl⟩ : ∃ (p : Fin 5000) (q : Fin 64), j = ix2 p q := ⟨j 0, j 1, eq_ix2 j⟩
  refine (pay_apply (iblk0 V c 0 t) (iblk0 V c 1 t) (iblk0 V c 2 t) (iblk0 V c 3 t) (iblk0 V c 4 t) p q).trans ?_
  have r0 : ((((cfg0.win 5).blk t).view.emb (ix2 p q)) 0).val = 5000 * t.val + p.val := by
    show win0_5.index t (0 : Fin 2) * 5000 + 1 * p.val = _; rw [e0]; omega
  have r1 : ((((cfg0.win 5).blk t).view.emb (ix2 p q)) 1).val = q.val := by
    show win0_5.index t (1 : Fin 2) * 64 + 1 * q.val = _; rw [e1]; omega
  show _ = max (Cert.Sage.linAt (M := 50000) (K := 96) (N := 64) (V c main_v22) (V c main_arg0) (V c main_arg2) (V c main_arg3)
    (fun j => V c main_v23 (ix2 (0 : Fin 1) j)) ((((cfg0.win 5).blk t).view.emb (ix2 p q)) 0) ((((cfg0.win 5).blk t).view.emb (ix2 p q)) 1)) 0
  refine congrArg (max · 0) ?_
  exact Cert.Sage.linAt_congr _ _ _ _ _ _ _ _ _ _ p _ q _
    (fun k => blk0_apply V c t (ix2 p k) (ix2 _ k) r0 rfl)
    (fun k => blk1_apply V c t (ix2 p k) (ix2 _ k) r0 rfl)
    (fun k => blk2_apply V c t (ix2 k q) (ix2 k _) rfl r1)
    (fun k => blk3_apply V c t (ix2 k q) (ix2 k _) rfl r1)
    (blk4_apply V c t (ix2 (0 : Fin 1) q) (ix2 (0 : Fin 1) _) rfl r1)

/-- An index of the result array is in point t's block iff each coordinate is in the block's range on its axis. -/
theorem mem_blk (t : Fin cfg0.N) (i : S50000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v24).slice (win0_5.rect t)).set ↔ _
  rw [View.set_slice_whole, Rect.mem_set_unit]
  exact Iff.rfl

/-- Every row of the result lies in the block of the grid point its row number divided by 5000 names. -/
theorem cover (i : S50000x64.Idx) : ∃ t : Fin cfg0.N, (cfg0.win 5).flush t = true ∧ i ∈ ((cfg0.win 5).blk t).view.set := by
  have hi0 : (i 0).val < 50000 := (i 0).isLt
  have hi1 : (i 1).val < 64 := (i 1).isLt
  have hN : cfg0.N = 10 := N_0
  have ht : (i 0).val / 5000 < cfg0.N := by rw [hN]; omega
  obtain ⟨-, -, -, -, -, -, -, -, -, -, e0, e1⟩ := idx_facts ⟨(i 0).val / 5000, ht⟩
  refine ⟨⟨(i 0).val / 5000, ht⟩, flush0_5 _, ?_⟩
  rw [mem_blk]
  intro a
  match a with
  | ⟨0, _⟩ =>
    show win0_5.index ⟨(i 0).val / 5000, ht⟩ (0 : Fin 2) * 5000 ≤ (i 0).val
      ∧ (i 0).val < win0_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_5.index ⟨(i 0).val / 5000, ht⟩ (1 : Fin 2) * 64 ≤ (i 1).val
      ∧ (i 1).val < win0_5.index ⟨(i 0).val / 5000, ht⟩ (1 : Fin 2) * 64 + 64
    rw [e1]; omega

/-- After the region the result array is the layer with activation of the arrays the region found. -/
theorem arr_eq (c : Dev nD) : (dat0 V c).arrAt 5 cfg0.N = G V c :=
  (dat0 V c).arrAt_eq_of_cover 5 (G V c) (fun t _ => flushed_eq V c t) (cover)

end Cert.KernelIdeal.Layer0

end
-- ==== Proof.Body1.lean ====
/-
  The second layer's kernel body on one row block, at the ideal values: what it stores is, entry by entry, the layer
  without activation of the blocks it loaded. The casts to bf16 are the identity on extended reals, each matrix product into the
  zero accumulator is the sum over the feature axis, and the bias row is broadcast over the block's rows.
-/
import proofs.«119526_j39170101740217_1_alg».proof.Proof.Spec
import proofs.«119526_j39170101740217_1_alg».proof.Proof.Gen.KernelIdeal.Skeleton
import Idealize.ShloMosaic.Lib.Pipeline.Value

noncomputable section

open scoped BigOperators

namespace Cert.KernelIdeal.Layer1

open Cert.KernelIdeal Cert.KernelIdeal.Gen Idealize.ShloMosaic Idealize.ShloMosaic.ValueIdx

/-- The body's stored value at entry (p, q) of the block. -/
theorem pay_apply (x0 x1 : Vec Ideal S5000x64 .f32) (x2 x3 : Vec Ideal S64x64 .f32) (x4 : Vec Ideal S1x64 .f32)
    (p : Fin 5000) (q : Fin 64) :
    k1_pay1 (F := Ideal) x0 x1 x2 x3 x4 (ix2 p q)
      = Cert.Sage.linAt x0 x1 x2 x3 (fun j => x4 (ix2 (0 : Fin 1) j)) p q := by
  unfold k1_pay1 Cert.Sage.linAt
  simp only [addf_apply, shapeCast_self]
  rw [Cert.LibDot.matmul_10_zero_apply dot_S5000x64_S64x64_S5000x64_1_0_0_1_n_n rfl rfl rfl rfl rfl rfl,
    Cert.LibDot.matmul_10_zero_apply dot_S5000x64_S64x64_S5000x64_1_0_0_1_n_n rfl rfl rfl rfl rfl rfl,
    broadcastTo_1b_ab_apply]
  simp only [truncf_apply]

end Cert.KernelIdeal.Layer1

end
-- ==== Proof.Region1.lean ====
/-
  The second layer's region as a whole-array function. Grid point t loads rows 5000 t … 5000 t + 4999 of the neighbour
  means and of the first layer's result, the two weight arrays and the bias row whole, and writes back the same rows of the
  result; the ten row blocks tile the 50000 rows. So after the region the result array holds the layer without activation
  of the arrays the region found, entry by entry.
-/
import proofs.«119526_j39170101740217_1_alg».proof.Proof.Body1
import proofs.«119526_j39170101740217_1_alg».proof.Proof.Gen.KernelIdeal.Frame
import Idealize.ShloMosaic.Lib.Pipeline.Value

noncomputable section

open scoped BigOperators

namespace Cert.KernelIdeal.Layer1

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block index of every window at every grid point: the row-blocked windows sit at block row t, the weights and the
    bias at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The result array after the region, as a function of the arrays the region finds. -/
def G (c : Dev nD) : Vec Ideal S50000x64 .f32 :=
  Cert.Sage.lin (M := 50000) (K := 64) (N := 64) (V c main_v43) (V c main_v24) (V c main_arg5) (V c main_arg6)
    (fun j => V c main_v44 (ix2 (0 : Fin 1) j))

/-- The neighbour means' block at point t is rows 5000 t … of the array. -/
theorem blk0_apply (c : Dev nD) (t : Fin cfg1.N) (y : S5000x64.Idx) (k : S50000x64.Idx)
    (h0 : (k 0).val = 5000 * t.val + (y 0).val) (h1 : (k 1).val = (y 1).val) :
    (iblk1 V c 0 t : Vec Ideal S5000x64 .f32) y = (V c main_v43 : S50000x64.Idx → EReal) k := by
  obtain ⟨e0, e1, -⟩ := idx_facts t
  unfold iblk1
  rw [View.read_apply]
  show V c main_v43 _ = V c main_v43 _
  refine congrArg _ ?_
  funext a
  apply Fin.ext
  match a with
  | ⟨0, _⟩ => show win1_0.index t (0 : Fin 2) * 5000 + 1 * (y 0).val = (k 0).val; rw [e0, h0]; omega
  | ⟨1, _⟩ => show win1_0.index t (1 : Fin 2) * 64 + 1 * (y 1).val = (k 1).val; rw [e1, h1]; omega

/-- The first layer's result's block at point t is rows 5000 t … of the array. -/
theorem blk1_apply (c : Dev nD) (t : Fin cfg1.N) (y : S5000x64.Idx) (k : S50000x64.Idx)
    (h0 : (k 0).val = 5000 * t.val + (y 0).val) (h1 : (k 1).val = (y 1).val) :
    (iblk1 V c 1 t : Vec Ideal S5000x64 .f32) y = (V c main_v24 : S50000x64.Idx → EReal) k := by
  obtain ⟨-, -, e0, e1, -⟩ := idx_facts t
  unfold iblk1
  rw [View.read_apply]
  show V c main_v24 _ = V c main_v24 _
  refine congrArg _ ?_
  funext a
  apply Fin.ext
  match a with
  | ⟨0, _⟩ => show win1_1.index t (0 : Fin 2) * 5000 + 1 * (y 0).val = (k 0).val; rw [e0, h0]; omega
  | ⟨1, _⟩ => show win1_1.index t (1 : Fin 2) * 64 + 1 * (y 1).val = (k 1).val; rw [e1, h1]; omega

/-- The left weights' block at every point is the whole array. -/
theorem blk2_apply (c : Dev nD) (t : Fin cfg1.N) (y k : S64x64.Idx)
    (h0 : (k 0).val = (y 0).val) (h1 : (k 1).val = (y 1).val) :
    (iblk1 V c 2 t : Vec Ideal S64x64 .f32) y = (V c main_arg5 : S64x64.Idx → EReal) k := by
  obtain ⟨-, -, -, -, e0, e1, -⟩ := idx_facts t
  unfold iblk1
  rw [View.read_apply]
  show V c main_arg5 _ = V c main_arg5 _
  refine congrArg _ ?_
  funext a
  apply Fin.ext
  match a with
  | ⟨0, _⟩ => show win1_2.index t (0 : Fin 2) * 64 + 1 * (y 0).val = (k 0).val; rw [e0, h0]; omega
  | ⟨1, _⟩ => show win1_2.index t (1 : Fin 2) * 64 + 1 * (y 1).val = (k 1).val; rw [e1, h1]; omega

/-- The right weights' block at every point is the whole array. -/
theorem blk3_apply (c : Dev nD) (t : Fin cfg1.N) (y k : S64x64.Idx)
    (h0 : (k 0).val = (y 0).val) (h1 : (k 1).val = (y 1).val) :
    (iblk1 V c 3 t : Vec Ideal S64x64 .f32) y = (V c main_arg6 : S64x64.Idx → EReal) k := by
  obtain ⟨-, -, -, -, -, -, e0, e1, -⟩ := idx_facts t
  unfold iblk1
  rw [View.read_apply]
  show V c main_arg6 _ = V c main_arg6 _
  refine congrArg _ ?_
  funext a
  apply Fin.ext
  match a with
  | ⟨0, _⟩ => show win1_3.index t (0 : Fin 2) * 64 + 1 * (y 0).val = (k 0).val; rw [e0, h0]; omega
  | ⟨1, _⟩ => show win1_3.index t (1 : Fin 2) * 64 + 1 * (y 1).val = (k 1).val; rw [e1, h1]; omega

/-- The bias row's block at every point is the whole row. -/
theorem blk4_apply (c : Dev nD) (t : Fin cfg1.N) (y k : S1x64.Idx)
    (h0 : (k 0).val = (y 0).val) (h1 : (k 1).val = (y 1).val) :
    (iblk1 V c 4 t : Vec Ideal S1x64 .f32) y = (V c main_v44 : S1x64.Idx → EReal) k := by
  obtain ⟨-, -, -, -, -, -, -, -, e0, e1, -⟩ := idx_facts t
  unfold iblk1
  rw [View.read_apply]
  show V c main_v44 _ = V c main_v44 _
  refine congrArg _ ?_
  funext a
  apply Fin.ext
  match a with
  | ⟨0, _⟩ => show win1_4.index t (0 : Fin 2) * 1 + 1 * (y 0).val = (k 0).val; rw [e0, h0]; omega
  | ⟨1, _⟩ => show win1_4.index t (1 : Fin 2) * 64 + 1 * (y 1).val = (k 1).val; rw [e1, h1]; omega

/-- What point t writes back is block t of `G`. -/
theorem flushed_eq (c : Dev nD) (t : Fin cfg1.N) :
    (dat1 V c).flushed 5 t = ((cfg1.win 5).blk t).view.read (Elt Ideal) (G V c) := by
  obtain ⟨-, -, -, -, -, -, -, -, -, -, e0, e1⟩ := idx_facts t
  show (cfg1.win 5).cut (grid1.coords t) ((dat1 V c).after 5 t) = _
  rw [after1_5]
  unfold out1_5
  rw [View.canon_unit_zero hz]
  simp only [View.ld_unit_zero (S := S5000x64) hz, View.ld_unit_zero (S := S64x64) hz, View.ld_unit_zero (S := S1x64) hz]
  funext j
  obtain ⟨p, q, rfl⟩ : ∃ (p : Fin 5000) (q : Fin 64), j = ix2 p q := ⟨j 0, j 1, eq_ix2 j⟩
  refine (pay_apply (iblk1 V c 0 t) (iblk1 V c 1 t) (iblk1 V c 2 t) (iblk1 V c 3 t) (iblk1 V c 4 t) p q).trans ?_
  have r0 : ((((cfg1.win 5).blk t).view.emb (ix2 p q)) 0).val = 5000 * t.val + p.val := by
    show win1_5.index t (0 : Fin 2) * 5000 + 1 * p.val = _; rw [e0]; omega
  have r1 : ((((cfg1.win 5).blk t).view.emb (ix2 p q)) 1).val = q.val := by
    show win1_5.index t (1 : Fin 2) * 64 + 1 * q.val = _; rw [e1]; omega
  show _ = (Cert.Sage.linAt (M := 50000) (K := 64) (N := 64) (V c main_v43) (V c main_v24) (V c main_arg5) (V c main_arg6)
    (fun j => V c main_v44 (ix2 (0 : Fin 1) j)) ((((cfg1.win 5).blk t).view.emb (ix2 p q)) 0) ((((cfg1.win 5).blk t).view.emb (ix2 p q)) 1))
  exact Cert.Sage.linAt_congr _ _ _ _ _ _ _ _ _ _ p _ q _
    (fun k => blk0_apply V c t (ix2 p k) (ix2 _ k) r0 rfl)
    (fun k => blk1_apply V c t (ix2 p k) (ix2 _ k) r0 rfl)
    (fun k => blk2_apply V c t (ix2 k q) (ix2 k _) rfl r1)
    (fun k => blk3_apply V c t (ix2 k q) (ix2 k _) rfl r1)
    (blk4_apply V c t (ix2 (0 : Fin 1) q) (ix2 (0 : Fin 1) _) rfl r1)

/-- An index of the result array is in point t's block iff each coordinate is in the block's range on its axis. -/
theorem mem_blk (t : Fin cfg1.N) (i : S50000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v45).slice (win1_5.rect t)).set ↔ _
  rw [View.set_slice_whole, Rect.mem_set_unit]
  exact Iff.rfl

/-- Every row of the result lies in the block of the grid point its row number divided by 5000 names. -/
theorem cover (i : S50000x64.Idx) : ∃ t : Fin cfg1.N, (cfg1.win 5).flush t = true ∧ i ∈ ((cfg1.win 5).blk t).view.set := by
  have hi0 : (i 0).val < 50000 := (i 0).isLt
  have hi1 : (i 1).val < 64 := (i 1).isLt
  have hN : cfg1.N = 10 := N_1
  have ht : (i 0).val / 5000 < cfg1.N := by rw [hN]; omega
  obtain ⟨-, -, -, -, -, -, -, -, -, -, e0, e1⟩ := idx_facts ⟨(i 0).val / 5000, ht⟩
  refine ⟨⟨(i 0).val / 5000, ht⟩, flush1_5 _, ?_⟩
  rw [mem_blk]
  intro a
  match a with
  | ⟨0, _⟩ =>
    show win1_5.index ⟨(i 0).val / 5000, ht⟩ (0 : Fin 2) * 5000 ≤ (i 0).val
      ∧ (i 0).val < win1_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_5.index ⟨(i 0).val / 5000, ht⟩ (1 : Fin 2) * 64 ≤ (i 1).val
      ∧ (i 1).val < win1_5.index ⟨(i 0).val / 5000, ht⟩ (1 : Fin 2) * 64 + 64
    rw [e1]; omega

/-- After the region the result array is the layer without activation of the arrays the region found. -/
theorem arr_eq (c : Dev nD) : (dat1 V c).arrAt 5 cfg1.N = G V c :=
  (dat1 V c).arrAt_eq_of_cover 5 (G V c) (fun t _ => flushed_eq V c t) (cover)

end Cert.KernelIdeal.Layer1

end
-- ==== Proof.KernelValue.lean ====
/-
  The kernel program's result as a function of its arguments, at the ideal values.

  Following the buffers through the program: the host computes the neighbour means of the features; the first region
  leaves the first layer (with activation) of those means and the features; the host computes the neighbour means of
  that result along the same edges; the second region leaves the second layer (without activation) of those means and
  the first layer's result. Each bias reaches its region as a one-row array, read back here as the bias itself.
-/
import proofs.«119526_j39170101740217_1_alg».proof.Proof.HostK
import proofs.«119526_j39170101740217_1_alg».proof.Proof.Region0
import proofs.«119526_j39170101740217_1_alg».proof.Proof.Region1
import proofs.«119526_j39170101740217_1_alg».proof.Proof.KernelRun

set_option maxRecDepth 16384

noncomputable section

open scoped BigOperators

namespace Cert.KernelIdeal.Net

open Cert.KernelIdeal Cert.KernelIdeal.Gen Cert.KernelIdeal.Chain Idealize.ShloMosaic Idealize.ShloMosaic.TcCoe Idealize.ShloMosaic.ValueIdx Idealize.SL.Sem

variable (m : (ℓ : Loc nD τ sig) → Buf (Elt Ideal) ℓ) (ρ : Dev nD → PrngReg)

/-- The first layer's result as a function of the arguments. -/
def hid (c : Dev nD) : Vec Ideal S50000x64 .f32 :=
  Cert.Sage.reluLin (M := 50000) (K := 96) (N := 64)
    (agg96 (m ((c : Thread nD τ).loc main_arg0)) (src (m ((c : Thread nD τ).loc main_arg1))) (tgt (m ((c : Thread nD τ).loc main_arg1))))
    (m ((c : Thread nD τ).loc main_arg0)) (m ((c : Thread nD τ).loc main_arg2)) (m ((c : Thread nD τ).loc main_arg3)) (fun j => (m ((c : Thread nD τ).loc main_arg4)) (ix1 j))

/-- The program's result as a function of the arguments. -/
def out (c : Dev nD) : Vec Ideal S50000x64 .f32 :=
  Cert.Sage.lin (M := 50000) (K := 64) (N := 64)
    (agg64 (hid m c) (src (m ((c : Thread nD τ).loc main_arg1))) (tgt (m ((c : Thread nD τ).loc main_arg1))))
    (hid m c) (m ((c : Thread nD τ).loc main_arg5)) (m ((c : Thread nD τ).loc main_arg6)) (fun j => (m ((c : Thread nD τ).loc main_arg7)) (ix1 j))

/-- A bias cast to one row and read along that row is the bias. -/
theorem row_eq (b : Vec Ideal S64 .f32) :
    (fun j : Fin 64 => (shapeCast S1x64 b shapeCasts_S64_S1x64 : Vec Ideal S1x64 .f32) (ix2 (0 : Fin 1) j)) = fun j => b (ix1 j) :=
  funext fun j => shapeCast_a_1a_apply b shapeCasts_S64_S1x64 0 j

/-! ## What the first region finds, and leaves -/

theorem V1_v22 (c : Dev nD) : V1 m ρ c main_v22
    = agg96 (m ((c : Thread nD τ).loc main_arg0)) (src (m ((c : Thread nD τ).loc main_arg1))) (tgt (m ((c : Thread nD τ).loc main_arg1))) := after0_v22 (W0 m ρ c)
theorem V1_v23 (c : Dev nD) : V1 m ρ c main_v23 = shapeCast _ (m ((c : Thread nD τ).loc main_arg4)) shapeCasts_S64_S1x64 := after0_v23 (W0 m ρ c)
theorem V1_arg0 (c : Dev nD) : V1 m ρ c main_arg0 = (m ((c : Thread nD τ).loc main_arg0)) := (after0_args (W0 m ρ c)).1
theorem V1_arg2 (c : Dev nD) : V1 m ρ c main_arg2 = (m ((c : Thread nD τ).loc main_arg2)) := (after0_args (W0 m ρ c)).2.2.1
theorem V1_arg3 (c : Dev nD) : V1 m ρ c main_arg3 = (m ((c : Thread nD τ).loc main_arg3)) := (after0_args (W0 m ρ c)).2.2.2.1

/-- After the first region its result array holds the first layer of the arguments. -/
theorem W2_v24 (c : Dev nD) : W2 m ρ c (Proc.devRef .tc main_v24) = hid m c := by
  refine (W2_arr m ρ c 5).trans ?_
  rw [Cert.KernelIdeal.Layer0.arr_eq]
  unfold Cert.KernelIdeal.Layer0.G hid
  rw [V1_v22 m ρ c, V1_v23 m ρ c, V1_arg0 m ρ c, V1_arg2 m ρ c, V1_arg3 m ρ c, row_eq]

/-! ## What the second region finds, and leaves -/

theorem W2_v1 (c : Dev nD) : W2 m ρ c (Proc.devRef .tc main_v1) = src (m ((c : Thread nD τ).loc main_arg1)) :=
  (W2_of_ne m ρ c main_v1 (by decide)).trans (after0_v1 (W0 m ρ c))
theorem W2_v3 (c : Dev nD) : W2 m ρ c (Proc.devRef .tc main_v3) = tgt (m ((c : Thread nD τ).loc main_arg1)) :=
  (W2_of_ne m ρ c main_v3 (by decide)).trans (after0_v3 (W0 m ρ c))
theorem W2_arg5 (c : Dev nD) : W2 m ρ c (Proc.devRef .tc main_arg5) = (m ((c : Thread nD τ).loc main_arg5)) :=
  (W2_of_ne m ρ c main_arg5 (by decide)).trans (after0_args (W0 m ρ c)).2.2.2.2.1
theorem W2_arg6 (c : Dev nD) : W2 m ρ c (Proc.devRef .tc main_arg6) = (m ((c : Thread nD τ).loc main_arg6)) :=
  (W2_of_ne m ρ c main_arg6 (by decide)).trans (after0_args (W0 m ρ c)).2.2.2.2.2.1
theorem W2_arg7 (c : Dev nD) : W2 m ρ c (Proc.devRef .tc main_arg7) = (m ((c : Thread nD τ).loc main_arg7)) :=
  (W2_of_ne m ρ c main_arg7 (by decide)).trans (after0_args (W0 m ρ c)).2.2.2.2.2.2

theorem V3_v43 (c : Dev nD) : V3 m ρ c main_v43
    = agg64 (hid m c) (src (m ((c : Thread nD τ).loc main_arg1))) (tgt (m ((c : Thread nD τ).loc main_arg1))) := by
  refine (after1_v43 (W2 m ρ c)).trans ?_
  rw [W2_v24 m ρ c, W2_v1 m ρ c, W2_v3 m ρ c]
theorem V3_v44 (c : Dev nD) : V3 m ρ c main_v44 = shapeCast _ (m ((c : Thread nD τ).loc main_arg7)) shapeCasts_S64_S1x64 := by
  refine (after1_v44 (W2 m ρ c)).trans ?_
  rw [W2_arg7 m ρ c]
theorem V3_v24 (c : Dev nD) : V3 m ρ c main_v24 = hid m c := (after1_kept (W2 m ρ c)).1.trans (W2_v24 m ρ c)
theorem V3_arg5 (c : Dev nD) : V3 m ρ c main_arg5 = (m ((c : Thread nD τ).loc main_arg5)) := (after1_kept (W2 m ρ c)).2.1.trans (W2_arg5 m ρ c)
theorem V3_arg6 (c : Dev nD) : V3 m ρ c main_arg6 = (m ((c : Thread nD τ).loc main_arg6)) := (after1_kept (W2 m ρ c)).2.2.trans (W2_arg6 m ρ c)

/-- After the second region the program's result array holds `out`. -/
theorem W4_v45 (c : Dev nD) : W4 m ρ c (Proc.devRef .tc main_v45) = out m c := by
  refine (W4_arr m ρ c 5).trans ?_
  rw [Cert.KernelIdeal.Layer1.arr_eq]
  unfold Cert.KernelIdeal.Layer1.G out
  rw [V3_v43 m ρ c, V3_v44 m ρ c, V3_v24 m ρ c, V3_arg5 m ρ c, V3_arg6 m ρ c, row_eq]

/-- The program's run: every weakly fair execution terminates with the result array at `out` and the arguments as launched. -/
theorem run : θ_run defs (onTc (τ := τ) (main (F := Ideal))) ⟨m, fun _ => 0, ρ⟩ (fun r => ∀ c : Dev nD,
      r.2.mem ((c.tc : Thread nD τ).loc main_v45) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (W4_v45 m ρ c), (h c).2⟩)
    (Cert.KernelIdeal.RunNamed.run_named (F := Ideal) m ρ)

end Cert.KernelIdeal.Net

end
-- ==== Proof.RefSide.lean ====
/-
  The reference's result as the two layers of whole arrays, at the ideal values.

  Read one operation at a time, the reference's first layer is: its two matrix products as sums over the 96 features, added,
  the bias broadcast over the rows added, the maximum with zero taken; the second layer the same over 64 features and
  without the maximum. The neighbour means each layer starts from are left as the host's own functions of the feature
  array and the edge array: the first is the stage the reference's run names, the second the same chain of gather,
  scatter-add and division applied to the first layer's result.
-/
import proofs.«119526_j39170101740217_1_alg».proof.Proof.Spec
import proofs.«119526_j39170101740217_1_alg».proof.Proof.Gen.ReferenceIdeal.Read

set_option maxRecDepth 16384

noncomputable section

open scoped BigOperators

namespace Cert.ReferenceIdeal.Layers

open Cert.ReferenceIdeal Cert.ReferenceIdeal.Gen Cert.ReferenceIdeal.Read Idealize.ShloMosaic Idealize.ShloMosaic.ValueIdx

/-- The neighbour means of a 64-feature array `h` along the edges `e`: the rows of `h` gathered at the sources, added
    into the targets' rows of a zero array, each row divided by its node's edge count (at least one). -/
def agg64 {F : FTy → Type} [FloatOps F] (h : (⟨S50000x64, .f32⟩ : BufTy).Contents (Elt F)) (e : (⟨S2x800000, .i32⟩ : BufTy).Contents (Elt F)) :
    (⟨S50000x64, .f32⟩ : BufTy).Contents (Elt F) :=
  Host.divf (Host.scatterAdd scatter_S50000x64_S800000x1_S800000x64_1_0_0_1 (val_main_v37 (F := F)) (val_main_v38 (F := F) e)
    (Host.gather gather_S50000x64_S800000x1_S800000x64_1_0_n_n_0_1_164 h (val_main_v35 (F := F) e))) (val_main_v47 (F := F) e)

/-- The second layer's neighbour means are that chain applied to the first layer's result. -/
theorem v48_eq {F : FTy → Type} [FloatOps F] (x0 : (⟨S50000x96, .f32⟩ : BufTy).Contents (Elt F)) (x1 : (⟨S2x800000, .i32⟩ : BufTy).Contents (Elt F))
    (x2 x3 : (⟨S96x64, .f32⟩ : BufTy).Contents (Elt F)) (x4 : (⟨S64, .f32⟩ : BufTy).Contents (Elt F)) :
    val_main_v48 (F := F) x0 x1 x2 x3 x4 = agg64 (val_main_v29 (F := F) x0 x1 x2 x3 x4) x1 := by
  unfold val_main_v48 val_main_v39 val_main_v36 agg64
  rfl

/-- The first layer: both products as sums, the bias row, the maximum with zero. -/
theorem layer1_eq (x0 : Vec Ideal S50000x96 .f32) (x1 : Vec Ideal S2x800000 .i32) (x2 x3 : Vec Ideal S96x64 .f32) (x4 : Vec Ideal S64 .f32) :
    val_main_v29 (F := Ideal) x0 x1 x2 x3 x4
      = Cert.Sage.reluLin (M := 50000) (K := 96) (N := 64) (val_main_v22 (F := Ideal) x0 x1) x0 x2 x3 (fun j => x4 (ix1 j)) := by
  funext i
  obtain ⟨p, q, rfl⟩ : ∃ (p : Fin 50000) (q : Fin 64), i = ix2 p q := ⟨i 0, i 1, eq_ix2 i⟩
  rw [val_main_v29_apply, val_main_v28_apply, val_main_v25_apply, val_main_v23_apply, val_main_v24_apply, val_main_v27_apply,
    val_main_v26_apply, val_main_call0_v0_apply, val_main_call0_cst_apply]
  have el : ∀ k, lidx_main_v23 (ix2 p q) k = ix2 p k := fun k => funext fun a => Fin.ext (by match a with | ⟨0, _⟩ => rfl | ⟨1, _⟩ => rfl)
  have er : ∀ k, ridx_main_v23 (ix2 p q) k = ix2 k q := fun k => funext fun a => Fin.ext (by match a with | ⟨0, _⟩ => rfl | ⟨1, _⟩ => rfl)
  have el' : ∀ k, lidx_main_v24 (ix2 p q) k = ix2 p k := fun k => funext fun a => Fin.ext (by match a with | ⟨0, _⟩ => rfl | ⟨1, _⟩ => rfl)
  have er' : ∀ k, ridx_main_v24 (ix2 p q) k = ix2 k q := fun k => funext fun a => Fin.ext (by match a with | ⟨0, _⟩ => rfl | ⟨1, _⟩ => rfl)
  have eb : idx_main_v26 (idx_main_v27 (ix2 p q)) = ix1 q := funext fun a => Fin.ext (by match a with | ⟨0, _⟩ => rfl)
  simp only [el, er, el', er', eb, Ideal.addf_def, Ideal.maximumf_def, Ideal.ofBits_def, Ideal.ofBits_zero_f32]
  rfl

/-- The second layer: both products as sums and the bias row. -/
theorem layer2_eq (x0 : Vec Ideal S50000x96 .f32) (x1 : Vec Ideal S2x800000 .i32) (x2 x3 : Vec Ideal S96x64 .f32) (x4 : Vec Ideal S64 .f32)
    (x5 x6 : Vec Ideal S64x64 .f32) (x7 : Vec Ideal S64 .f32) :
    val_main_v54 (F := Ideal) x0 x1 x2 x3 x4 x5 x6 x7
      = Cert.Sage.lin (M := 50000) (K := 64) (N := 64) (val_main_v48 (F := Ideal) x0 x1 x2 x3 x4) (val_main_v29 (F := Ideal) x0 x1 x2 x3 x4)
          x5 x6 (fun j => x7 (ix1 j)) := by
  funext i
  obtain ⟨p, q, rfl⟩ : ∃ (p : Fin 50000) (q : Fin 64), i = ix2 p q := ⟨i 0, i 1, eq_ix2 i⟩
  rw [val_main_v54_apply, val_main_v51_apply, val_main_v49_apply, val_main_v50_apply, val_main_v53_apply, val_main_v52_apply]
  have el : ∀ k, lidx_main_v49 (ix2 p q) k = ix2 p k := fun k => funext fun a => Fin.ext (by match a with | ⟨0, _⟩ => rfl | ⟨1, _⟩ => rfl)
  have er : ∀ k, ridx_main_v49 (ix2 p q) k = ix2 k q := fun k => funext fun a => Fin.ext (by match a with | ⟨0, _⟩ => rfl | ⟨1, _⟩ => rfl)
  have el' : ∀ k, lidx_main_v50 (ix2 p q) k = ix2 p k := fun k => funext fun a => Fin.ext (by match a with | ⟨0, _⟩ => rfl | ⟨1, _⟩ => rfl)
  have er' : ∀ k, ridx_main_v50 (ix2 p q) k = ix2 k q := fun k => funext fun a => Fin.ext (by match a with | ⟨0, _⟩ => rfl | ⟨1, _⟩ => rfl)
  have eb : idx_main_v52 (idx_main_v53 (ix2 p q)) = ix1 q := funext fun a => Fin.ext (by match a with | ⟨0, _⟩ => rfl)
  simp only [el, er, el', er', eb, Ideal.addf_def]
  rfl

/-- The reference's result: the second layer of the neighbour means of the first layer's result and of that result,
    the first layer taken of the neighbour means of the features and of the features. -/
theorem result_eq (m : (ℓ : Loc nD τ sig) → Buf (Elt Ideal) ℓ) (c : Dev nD) :
    Cert.ReferenceIdeal.Value.res_main_v54 (F := Ideal) m c
      = Cert.Sage.lin (M := 50000) (K := 64) (N := 64)
          (agg64 (Cert.Sage.reluLin (M := 50000) (K := 96) (N := 64)
              (val_main_v22 (F := Ideal) (m ((c.tc : Thread nD τ).loc main_arg0)) (m ((c.tc : Thread nD τ).loc main_arg1)))
              (m ((c.tc : Thread nD τ).loc main_arg0)) (m ((c.tc : Thread nD τ).loc main_arg2)) (m ((c.tc : Thread nD τ).loc main_arg3))
              (fun j => m ((c.tc : Thread nD τ).loc main_arg4) (ix1 j))) (m ((c.tc : Thread nD τ).loc main_arg1)))
          (Cert.Sage.reluLin (M := 50000) (K := 96) (N := 64)
              (val_main_v22 (F := Ideal) (m ((c.tc : Thread nD τ).loc main_arg0)) (m ((c.tc : Thread nD τ).loc main_arg1)))
              (m ((c.tc : Thread nD τ).loc main_arg0)) (m ((c.tc : Thread nD τ).loc main_arg2)) (m ((c.tc : Thread nD τ).loc main_arg3))
              (fun j => m ((c.tc : Thread nD τ).loc main_arg4) (ix1 j)))
          (m ((c.tc : Thread nD τ).loc main_arg5)) (m ((c.tc : Thread nD τ).loc main_arg6))
          (fun j => m ((c.tc : Thread nD τ).loc main_arg7) (ix1 j)) := by
  rw [val_main_v54_eq, layer2_eq, v48_eq, layer1_eq]

end Cert.ReferenceIdeal.Layers

end
-- ==== Proof.Bridge.lean ====
/-
  The two idealized programs compute one function of the arguments.

  The kernel program's result is the second layer of the neighbour means of the first layer's result; so is the
  reference's. The neighbour-mean chains of the two programs are the same host operations with the same dimension
  records, applied to the same arrays, so they are equal as they stand; the layers are equal by the sums they were read as
  on each side. Neither side uses that the inputs are finite: no term is moved across a sum.
-/
import proofs.«119526_j39170101740217_1_alg».proof.Defs
import proofs.«119526_j39170101740217_1_alg».proof.Proof.Gen.Kernel.Frame
import proofs.«119526_j39170101740217_1_alg».proof.Proof.Gen.Pre_finite_inputs
import proofs.«119526_j39170101740217_1_alg».proof.Proof.KernelValue
import proofs.«119526_j39170101740217_1_alg».proof.Proof.RefSide

set_option maxRecDepth 16384

noncomputable section

namespace Cert.Bridge

open Idealize.ShloMosaic Idealize.ShloMosaic.TcCoe Idealize.SL.Sem

/-- The reference's neighbour means of the features are the kernel program's. -/
theorem agg96_eq (x : Vec Ideal ⟨2, ![50000, 96]⟩ .f32) (e : Vec Ideal ⟨2, ![2, 800000]⟩ .i32) :
    Cert.ReferenceIdeal.Read.val_main_v22 (F := Ideal) x e
      = Cert.KernelIdeal.Chain.agg96 (F := Ideal) x (Cert.KernelIdeal.Chain.src e) (Cert.KernelIdeal.Chain.tgt e) := rfl

/-- The reference's neighbour means of a 64-feature array are the kernel program's. -/
theorem agg64_eq (h : Vec Ideal ⟨2, ![50000, 64]⟩ .f32) (e : Vec Ideal ⟨2, ![2, 800000]⟩ .i32) :
    Cert.ReferenceIdeal.Layers.agg64 (F := Ideal) h e
      = Cert.KernelIdeal.Chain.agg64 (F := Ideal) h (Cert.KernelIdeal.Chain.src e) (Cert.KernelIdeal.Chain.tgt e) := rfl

end Cert.Bridge

namespace Cert.Proof.SageClaims

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the result array at one function of arguments that agree. -/
theorem algebraic : Cert.algebraic_KernelIdeal_ReferenceIdeal := by
  intro m ρ m' ρ' _ hagree
  refine ⟨fun c => Cert.KernelIdeal.Net.out m c, Cert.KernelIdeal.Net.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Layers.result_eq]
  obtain ⟨h0, h1, h2, h3, h4, h5, h6, h7⟩ := hagree c
  rw [h0, h1, h2, h3, h4, h5, h6, h7]
  unfold Cert.KernelIdeal.Net.out Cert.KernelIdeal.Net.hid
  rw [Cert.Bridge.agg96_eq, Cert.Bridge.agg64_eq]

end Cert.Proof.SageClaims

end
-- ==== Proof.lean ====
/- The certificate: the two layers of neighbour-mean aggregation and dense combination computed by the kernel program
   and by the reference are one function of the arguments at the ideal values.
   The kernel program's two regions each leave a dense layer of the arrays they find (Proof/Region0, Proof/Region1 over
   the block payloads of Proof/Body0, Proof/Body1); the host operations around them are the neighbour-mean chains
   (Proof/HostK); Proof/KernelValue follows the buffers through the program; Proof/RefSide reads the reference's run as the
   same two layers; Proof/Bridge joins them and states the claims. -/
import proofs.«119526_j39170101740217_1_alg».proof.Defs
import proofs.«119526_j39170101740217_1_alg».proof.Proof.Gen.Kernel
import proofs.«119526_j39170101740217_1_alg».proof.Proof.Gen.Kernel.Skeleton
import proofs.«119526_j39170101740217_1_alg».proof.Proof.Gen.Kernel.Launch
import proofs.«119526_j39170101740217_1_alg».proof.Proof.Gen.Kernel.Points
import proofs.«119526_j39170101740217_1_alg».proof.Proof.Gen.Kernel.Frame
import proofs.«119526_j39170101740217_1_alg».proof.Proof.Gen.KernelIdeal
import proofs.«119526_j39170101740217_1_alg».proof.Proof.Gen.KernelIdeal.Skeleton
import proofs.«119526_j39170101740217_1_alg».proof.Proof.Gen.KernelIdeal.Launch
import proofs.«119526_j39170101740217_1_alg».proof.Proof.Gen.KernelIdeal.Points
import proofs.«119526_j39170101740217_1_alg».proof.Proof.Gen.KernelIdeal.Frame
import proofs.«119526_j39170101740217_1_alg».proof.Proof.Gen.ReferenceIdeal
import proofs.«119526_j39170101740217_1_alg».proof.Proof.Gen.Pre_finite_inputs
import proofs.«119526_j39170101740217_1_alg».proof.Proof.Gen.ReferenceIdeal.Run
import proofs.«119526_j39170101740217_1_alg».proof.Proof.Gen.ReferenceIdeal.Read
import proofs.«119526_j39170101740217_1_alg».proof.Proof.Bridge
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    SageClaims.frame_k, SageClaims.frame_ki, SageClaims.frame_ri, trivial, SageClaims.algebraic⟩

end Cert.Proof

end
